-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S8388608 : Shape := ⟨1, ![8388608]⟩
abbrev S65536 : Shape := ⟨1, ![65536]⟩
abbrev S524288 : Shape := ⟨1, ![524288]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S2x2048x4096 .f32) (main_arg1 : IVec S8388608 32) (main_arg2 : FVec F S65536 .f32) (main_arg3 : FVec F S65536 .f32) (main_arg4 : IVec S524288 32) (main_arg5 : IVec S524288 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S65536 .f32 := Host.absf main_arg2
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S65536 .f32 := Host.absf main_arg3
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S2x2048x4096 : Shape := ⟨3, ![2, 2048, 4096]⟩
abbrev S8388608 : Shape := ⟨1, ![8388608]⟩
abbrev S65536 : Shape := ⟨1, ![65536]⟩
abbrev S524288 : Shape := ⟨1, ![524288]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S65536x8x32 : Shape := ⟨3, ![65536, 8, 32]⟩
abbrev S65536x8x1 : Shape := ⟨3, ![65536, 8, 1]⟩
abbrev S65536x1x1 : Shape := ⟨3, ![65536, 1, 1]⟩
abbrev S4096x4096 : Shape := ⟨2, ![4096, 4096]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 50
  | .vmem => 6
  | .smem => 0
  | _ => 0

abbrev bufTy : (tb : Table) → Fin (tcTables nBuf tb) → BufTy
  | .hbm, ⟨0, _⟩ => ⟨S2x2048x4096, .f32⟩
  | .hbm, ⟨1, _⟩ => ⟨S8388608, .i32⟩
  | .hbm, ⟨2, _⟩ => ⟨S65536, .f32⟩
  | .hbm, ⟨3, _⟩ => ⟨S65536, .f32⟩
  | .hbm, ⟨4, _⟩ => ⟨S524288, .i32⟩
  | .hbm, ⟨5, _⟩ => ⟨S524288, .i32⟩
  | .hbm, ⟨6, _⟩ => ⟨S_, .i32⟩
  | .hbm, ⟨7, _⟩ => ⟨S8388608, .i32⟩
  | .hbm, ⟨8, _⟩ => ⟨S8388608, .i32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S8388608x1, .i32⟩
  | .hbm, ⟨16, _⟩ => ⟨S8388608x1, .i32⟩
  | .hbm, ⟨17, _⟩ => ⟨S8388608x2, .i32⟩
  | .hbm, ⟨18, _⟩ => ⟨S16777216, .i32⟩
  | .hbm, ⟨19, _⟩ => ⟨S16777216, .f32⟩
  | .hbm, ⟨20, _⟩ => ⟨S65536x8x32, .f32⟩
  | .hbm, ⟨21, _⟩ => ⟨S524288, .f32⟩
  | .hbm, ⟨22, _⟩ => ⟨S_, .f32⟩
  | .hbm, ⟨23, _⟩ => ⟨S524288, .f32⟩
  | .hbm, ⟨24, _⟩ => ⟨S524288, .f32⟩
  | .hbm, ⟨25, _⟩ => ⟨S65536x8x1, .f32⟩
  | .hbm, ⟨26, _⟩ => ⟨S524288, .f32⟩
  | .hbm, ⟨27, _⟩ => ⟨S_, .f32⟩
  | .hbm, ⟨28, _⟩ => ⟨S524288, .f32⟩
  | .hbm, ⟨29, _⟩ => ⟨S524288, .f32⟩
  | .hbm, ⟨30, _⟩ => ⟨S65536x8x1, .f32⟩
  | .hbm, ⟨31, _⟩ => ⟨S_, .f32⟩
  | .hbm, ⟨32, _⟩ => ⟨S65536x8x32, .f32⟩
  | .hbm, ⟨33, _⟩ => ⟨S65536x8x32, .f32⟩
  | .hbm, ⟨34, _⟩ => ⟨S65536x8x32, .f32⟩
  | .hbm, ⟨35, _⟩ => ⟨S65536x8x32, .f32⟩
  | .hbm, ⟨36, _⟩ => ⟨S65536x8x32, .f32⟩
  | .hbm, ⟨37, _⟩ => ⟨S65536x8x32, .f32⟩
  | .hbm, ⟨38, _⟩ => ⟨S65536x1x1, .f32⟩
  | .hbm, ⟨39, _⟩ => ⟨S65536x8x32, .f32⟩
  | .hbm, ⟨40, _⟩ => ⟨S65536x8x32, .f32⟩
  | .hbm, ⟨41, _⟩ => ⟨S65536x1x1, .f32⟩
  | .hbm, ⟨42, _⟩ => ⟨S65536x8x32, .f32⟩
  | .hbm, ⟨43, _⟩ => ⟨S65536x8x32, .f32⟩
  | .hbm, ⟨44, _⟩ => ⟨S4096x4096, .f32⟩
  | .hbm, ⟨45, _⟩ => ⟨S4096x4096, .bf16⟩
  | .hbm, ⟨46, _⟩ => ⟨S4096x4096, .f32⟩
  | .hbm, ⟨47, _⟩ => ⟨S4096x4096, .bf16⟩
  | .hbm, ⟨48, _⟩ => ⟨S4096x4096, .f32⟩
  | .hbm, ⟨49, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_c_1 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_cst : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_cst_2 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_cst_3 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_v35 : Ref sig .tc := ⟨.hbm, 47, rfl⟩
abbrev main_call0_v36 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S65536x8x32 : S16777216.ShapeCasts S65536x8x32
  bcast_S_S524288 : S_.BroadcastsInDim S524288 (![] : Fin 0 → Fin S524288.rank)
  shapeCasts_S524288_S65536x8x1 : S524288.ShapeCasts S65536x8x1
  bcast_S_S65536x8x32 : S_.BroadcastsInDim S65536x8x32 (![] : Fin 0 → Fin S65536x8x32.rank)
  bcast_S65536x8x1_S65536x8x32_0_1_2 : S65536x8x1.BroadcastsInDim S65536x8x32 (![0, 1, 2] : Fin 3 → Fin S65536x8x32.rank)
  shapeCasts_S65536_S65536x1x1 : S65536.ShapeCasts S65536x1x1
  bcast_S65536x1x1_S65536x8x32_0_1_2 : S65536x1x1.BroadcastsInDim S65536x8x32 (![0, 1, 2] : Fin 3 → Fin S65536x8x32.rank)
  shapeCasts_S65536x8x32_S4096x4096 : S65536x8x32.ShapeCasts S4096x4096
  bitsLt_bf16_f32 : FTy.bits .bf16 < FTy.bits .f32
  shapeCasts_S2x2048x4096_S4096x4096 : S2x2048x4096.ShapeCasts S4096x4096
  shapeCasts_S4096x4096_S2x2048x4096 : S4096x4096.ShapeCasts S2x2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_call0_v35) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v33) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v36) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S8388608 : Shape := ⟨1, ![8388608]⟩
abbrev S65536 : Shape := ⟨1, ![65536]⟩
abbrev S524288 : Shape := ⟨1, ![524288]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S65536x8x32 : Shape := ⟨3, ![65536, 8, 32]⟩
abbrev S65536x8x1 : Shape := ⟨3, ![65536, 8, 1]⟩
abbrev S65536x1x1 : Shape := ⟨3, ![65536, 1, 1]⟩
abbrev S4096x4096 : Shape := ⟨2, ![4096, 4096]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S8388608, .i32⟩
  | .hbm, ⟨2, _⟩ => ⟨S65536, .f32⟩
  | .hbm, ⟨3, _⟩ => ⟨S65536, .f32⟩
  | .hbm, ⟨4, _⟩ => ⟨S524288, .i32⟩
  | .hbm, ⟨5, _⟩ => ⟨S524288, .i32⟩
  | .hbm, ⟨6, _⟩ => ⟨S_, .i32⟩
  | .hbm, ⟨7, _⟩ => ⟨S8388608, .i32⟩
  | .hbm, ⟨8, _⟩ => ⟨S8388608, .i32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S8388608x1, .i32⟩
  | .hbm, ⟨16, _⟩ => ⟨S8388608x1, .i32⟩
  | .hbm, ⟨17, _⟩ => ⟨S8388608x2, .i32⟩
  | .hbm, ⟨18, _⟩ => ⟨S16777216, .i32⟩
  | .hbm, ⟨19, _⟩ => ⟨S16777216, .f32⟩
  | .hbm, ⟨20, _⟩ => ⟨S65536x8x32, .f32⟩
  | .hbm, ⟨21, _⟩ => ⟨S524288, .f32⟩
  | .hbm, ⟨22, _⟩ => ⟨S_, .f32⟩
  | .hbm, ⟨23, _⟩ => ⟨S524288, .f32⟩
  | .hbm, ⟨24, _⟩ => ⟨S524288, .f32⟩
  | .hbm, ⟨25, _⟩ => ⟨S65536x8x1, .f32⟩
  | .hbm, ⟨26, _⟩ => ⟨S524288, .f32⟩
  | .hbm, ⟨27, _⟩ => ⟨S_, .f32⟩
  | .hbm, ⟨28, _⟩ => ⟨S524288, .f32⟩
  | .hbm, ⟨29, _⟩ => ⟨S524288, .f32⟩
  | .hbm, ⟨30, _⟩ => ⟨S65536x8x1, .f32⟩
  | .hbm, ⟨31, _⟩ => ⟨S_, .f32⟩
  | .hbm, ⟨32, _⟩ => ⟨S65536x8x32, .f32⟩
  | .hbm, ⟨33, _⟩ => ⟨S65536x8x32, .f32⟩
  | .hbm, ⟨34, _⟩ => ⟨S65536x8x32, .f32⟩
  | .hbm, ⟨35, _⟩ => ⟨S65536x8x32, .f32⟩
  | .hbm, ⟨36, _⟩ => ⟨S65536x8x32, .f32⟩
  | .hbm, ⟨37, _⟩ => ⟨S65536x8x32, .f32⟩
  | .hbm, ⟨38, _⟩ => ⟨S65536x1x1, .f32⟩
  | .hbm, ⟨39, _⟩ => ⟨S65536x8x32, .f32⟩
  | .hbm, ⟨40, _⟩ => ⟨S65536x8x32, .f32⟩
  | .hbm, ⟨41, _⟩ => ⟨S65536x1x1, .f32⟩
  | .hbm, ⟨42, _⟩ => ⟨S65536x8x32, .f32⟩
  | .hbm, ⟨43, _⟩ => ⟨S65536x8x32, .f32⟩
  | .hbm, ⟨44, _⟩ => ⟨S4096x4096, .f32⟩
  | .hbm, ⟨45, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S65536x8x32 : S16777216.ShapeCasts S65536x8x32
  bcast_S_S524288 : S_.BroadcastsInDim S524288 (![] : Fin 0 → Fin S524288.rank)
  shapeCasts_S524288_S65536x8x1 : S524288.ShapeCasts S65536x8x1
  bcast_S_S65536x8x32 : S_.BroadcastsInDim S65536x8x32 (![] : Fin 0 → Fin S65536x8x32.rank)
  bcast_S65536x8x1_S65536x8x32_0_1_2 : S65536x8x1.BroadcastsInDim S65536x8x32 (![0, 1, 2] : Fin 3 → Fin S65536x8x32.rank)
  shapeCasts_S65536_S65536x1x1 : S65536.ShapeCasts S65536x1x1
  bcast_S65536x1x1_S65536x8x32_0_1_2 : S65536x1x1.BroadcastsInDim S65536x8x32 (![0, 1, 2] : Fin 3 → Fin S65536x8x32.rank)
  shapeCasts_S65536x8x32_S4096x4096 : S65536x8x32.ShapeCasts S4096x4096
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.TileProduct.lean ====
/-
  One grid point's arithmetic, at the ideal values. The body loads a 512 x 4096 block `a` of the activations and a
  1024 x 4096 block `b` of the weights and multiplies them, contracting the long (second) axis of BOTH, into a zero
  accumulator. On the extended reals nothing is rounded and nothing is chunked, so entry (r, n) of the 512 x 1024 tile
  is the plain finite sum  Σ_k a[r, k] · b[n, k]  over the 4096 positions of the contracted axis.
-/
import proofs.«413379_j24721831756583_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe Idealize.SL.Sem

/-! ## Where the product reads its operands

At tile entry `j = (r, n)` and contracted position `q` the left operand is read at `(r, q)` and the right one at
`(n, q)`: each operand keeps its own free axis first and shares the contracted axis second. -/

/-- The left operand's row is the tile's row. -/
theorem lhs_row (j : S512x1024.Idx) (q : dot_S512x4096_S1024x4096_S512x1024_1_1_0_0_n_n.contr.Idx) :
    (dot_S512x4096_S1024x4096_S512x1024_1_1_0_0_n_n.lhsIdx j q 0).val = (j 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- The left operand's column is the contracted position. -/
theorem lhs_depth (j : S512x1024.Idx) (q : dot_S512x4096_S1024x4096_S512x1024_1_1_0_0_n_n.contr.Idx) :
    (dot_S512x4096_S1024x4096_S512x1024_1_1_0_0_n_n.lhsIdx j q 1).val = (q ⟨0, by decide⟩).val :=
  dot_S512x4096_S1024x4096_S512x1024_1_1_0_0_n_n.lhsIdx_val_of_single rfl j q
/-- The right operand's row is the tile's COLUMN: the weights are stored output-feature-major. -/
theorem rhs_row (j : S512x1024.Idx) (q : dot_S512x4096_S1024x4096_S512x1024_1_1_0_0_n_n.contr.Idx) :
    (dot_S512x4096_S1024x4096_S512x1024_1_1_0_0_n_n.rhsIdx j q 0).val = (j 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- The right operand's column is the contracted position. -/
theorem rhs_depth (j : S512x1024.Idx) (q : dot_S512x4096_S1024x4096_S512x1024_1_1_0_0_n_n.contr.Idx) :
    (dot_S512x4096_S1024x4096_S512x1024_1_1_0_0_n_n.rhsIdx j q 1).val = (q ⟨0, by decide⟩).val :=
  dot_S512x4096_S1024x4096_S512x1024_1_1_0_0_n_n.rhsIdx_val_of_single rfl j q

/-! ## The tile at an entry -/

/-- Entry `(r, n)` of what the body stores: the sum over the contracted axis of `a[r, k] · b[n, k]`. The two shape
    casts of the body are between equal shapes, and the accumulator is the zero splat. -/
theorem tile_apply (a : Vec Ideal S512x4096 .bf16) (b : Vec Ideal S1024x4096 .bf16) (r : Fin 512) (n : Fin 1024) :
    k0_pay1 (F := Ideal) a b (ValueIdx.ix2 r n) = ∑ k : Fin 4096, a (ValueIdx.ix2 r k) * b (ValueIdx.ix2 n k) := by
  unfold k0_pay1
  rw [shapeCast_self, shapeCast_self]
  simp only [matmul]
  rw [Ideal.matmul_constant_zero_apply, ← Equiv.sum_comp (ValueIdx.contrEquiv1 dot_S512x4096_S1024x4096_S512x1024_1_1_0_0_n_n 4096 rfl rfl).symm]
  refine Finset.sum_congr rfl fun k _ => ?_
  have hk := ValueIdx.contrEquiv1_symm_val dot_S512x4096_S1024x4096_S512x1024_1_1_0_0_n_n 4096 rfl rfl k
  have el : dot_S512x4096_S1024x4096_S512x1024_1_1_0_0_n_n.lhsIdx (ValueIdx.ix2 r n) ((ValueIdx.contrEquiv1 dot_S512x4096_S1024x4096_S512x1024_1_1_0_0_n_n 4096 rfl rfl).symm k) = ValueIdx.ix2 r k := funext fun x => Fin.ext (by
    match x with
    | ⟨0, _⟩ => exact lhs_row _ _
    | ⟨1, _⟩ => exact (lhs_depth _ _).trans hk)
  have er : dot_S512x4096_S1024x4096_S512x1024_1_1_0_0_n_n.rhsIdx (ValueIdx.ix2 r n) ((ValueIdx.contrEquiv1 dot_S512x4096_S1024x4096_S512x1024_1_1_0_0_n_n 4096 rfl rfl).symm k) = ValueIdx.ix2 n k := funext fun x => Fin.ext (by
    match x with
    | ⟨0, _⟩ => exact rhs_row _ _
    | ⟨1, _⟩ => exact (rhs_depth _ _).trans hk)
  rw [el, er]

end Cert.KernelIdeal.Tile

end
-- ==== Proof.WholeProduct.lean ====
/-
  From the tiles to the whole array. The grid has 4 x 8 points; point (g0, g1) multiplies row block g1 of the
  activations (rows 512·g1 … 512·g1 + 511, all 4096 columns) by row block g0 of the weights (rows 1024·g0 …
  1024·g0 + 1023, all 4096 columns) and writes tile (g1, g0) of the 4096 x 4096 result. Every contraction is over the
  FULL long axis, so each tile is written once and is a restriction of ONE function of the two arrays,
      P[r, n] = Σ_k X[r, k] · W[n, k],
  and the 32 tiles cover the result: after the region the result array IS P.
-/
import proofs.«413379_j24721831756583_2_alg».proof.Proof.Gen.KernelIdeal.Frame
import proofs.«413379_j24721831756583_2_alg».proof.Proof.TileProduct
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The activations as the region finds them: 4096 rows (batch and sequence flattened) by 4096 input features. -/
abbrev acts (c : Dev nD) : Vec Ideal S4096x4096 .bf16 := V m c main_call0_v35
/-- The weights as the region finds them: 4096 output features by 4096 input features. -/
abbrev wts (c : Dev nD) : Vec Ideal S4096x4096 .bf16 := V m c main_call0_v33

/-- The product of every row of `x` with every row of `w`: `P[r, n] = Σ_k x[r, k] · w[n, k]`. -/
def rowsByRows (x w : Vec Ideal S4096x4096 .bf16) : Vec Ideal S4096x4096 .f32 :=
  fun i => ∑ k : Fin 4096, x (ValueIdx.ix2 (i 0) k) * w (ValueIdx.ix2 (i 1) k)

theorem origin : (![0, 0] : Fin 2 → Nat) = fun _ => 0 := funext fun a => by fin_cases a <;> rfl

/-- The three index maps over the 32 grid points: the activations' row block and the weights' row block are the result
    tile's row and column block, and both inputs take the single column block 0. -/
theorem index_maps : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0 :=
  (by decide +kernel : ∀ t : Fin grid0.N, _)

/-- Every one of the 8 x 4 tiles is some grid point's. -/
theorem every_tile : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What grid point `t` writes back is tile `t` of `rowsByRows` of the two arrays. -/
theorem flushed_eq (c : Dev nD) (t : Fin cfg0.N) :
    (dats m 0 c).flushed 2 t = ((cfg0.win 2).blk t).view.read (Elt Ideal) (rowsByRows (acts m c) (wts m c)) := by
  show (cfg0.win 2).cut (grid0.coords t) ((dats m 0 c).after 2 t) = _
  rw [after0_2]
  unfold out0_2
  rw [View.canon_unit_zero origin]
  simp only [View.ld_unit_zero (S := S512x4096) origin, View.ld_unit_zero (S := S1024x4096) origin]
  obtain ⟨e0, e1, e2, e3⟩ := index_maps t
  funext j
  obtain ⟨r, n, rfl⟩ : ∃ (r : Fin 512) (n : Fin 1024), j = ValueIdx.ix2 r n := ⟨j 0, j 1, ValueIdx.eq_ix2 j⟩
  refine (Tile.tile_apply (iblk m c 0 t) (iblk m c 1 t) r n).trans ?_
  show _ = ∑ k : Fin 4096, acts m c (ValueIdx.ix2 ((((cfg0.win 2).blk t).view.emb (ValueIdx.ix2 r n)) 0) k) * wts m c (ValueIdx.ix2 ((((cfg0.win 2).blk t).view.emb (ValueIdx.ix2 r n)) 1) k)
  refine Finset.sum_congr rfl fun k _ => ?_
  have hx : ((cfg0.win 0).blk t).view.emb (ValueIdx.ix2 r k) = ValueIdx.ix2 ((((cfg0.win 2).blk t).view.emb (ValueIdx.ix2 r n)) 0) k := by
    funext a; apply Fin.ext
    match a with
    | ⟨0, _⟩ => show win0_0.index t (0 : Fin 2) * 512 + 1 * r.val = win0_2.index t (0 : Fin 2) * 512 + 1 * r.val; omega
    | ⟨1, _⟩ => show win0_0.index t (1 : Fin 2) * 4096 + 1 * k.val = k.val; omega
  have hw : ((cfg0.win 1).blk t).view.emb (ValueIdx.ix2 n k) = ValueIdx.ix2 ((((cfg0.win 2).blk t).view.emb (ValueIdx.ix2 r n)) 1) k := by
    funext a; apply Fin.ext
    match a with
    | ⟨0, _⟩ => show win0_1.index t (0 : Fin 2) * 1024 + 1 * n.val = win0_2.index t (1 : Fin 2) * 1024 + 1 * n.val; omega
    | ⟨1, _⟩ => show win0_1.index t (1 : Fin 2) * 4096 + 1 * k.val = k.val; omega
  show acts m c (((cfg0.win 0).blk t).view.emb (ValueIdx.ix2 r k)) * wts m c (((cfg0.win 1).blk t).view.emb (ValueIdx.ix2 n k)) = _
  rw [hx, hw]
  rfl

/-- An index of the result is in point `t`'s tile iff each coordinate is in the tile's range on its axis. -/
theorem mem_tile (t : Fin cfg0.N) (i : S4096x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_call0_v36).slice (win0_2.rect t)).set ↔ _
  rw [View.set_slice_whole, Rect.mem_set_unit]
  exact Iff.rfl

/-- The tiles cover the result: entry (r, n) lies in tile (r / 512, n / 1024). -/
theorem covered (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := every_tile ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the region the result array is the whole product. -/
theorem result_array (c : Dev nD) : (dats m 0 c).arrAt 2 cfg0.N = rowsByRows (acts m c) (wts m c) :=
  (dats m 0 c).arrAt_eq_of_cover 2 _ (fun t _ => flushed_eq m c t) covered

end Cert.KernelIdeal.Whole

end
-- ==== Proof.AroundRegion.lean ====
/-
  Around the region. Before it, @main prepares the two operand arrays: the activations are x : [2, 2048, 4096] flattened
  to 4096 rows and narrowed to bf16; the weights are the de-quantised 4096 x 4096 matrix (nibbles of `packed`, scaled
  and shifted per sub-block and per super-block) narrowed to bf16. After it, @main reshapes the 4096 x 4096 product
  back to [2, 2048, 4096]. Narrowing a float format is the identity on the extended reals, and the de-quantisation is,
  operation for operation and constant for constant, the one the reference performs: it is named here by the reference's
  own stage and never opened.
-/
import proofs.«413379_j24721831756583_2_alg».proof.Proof.Gen.KernelIdeal.Frame
import proofs.«413379_j24721831756583_2_alg».proof.Proof.Gen.ReferenceIdeal.Read
import proofs.«413379_j24721831756583_2_alg».proof.Proof.WholeProduct
import Idealize.ShloMosaic.Lib.StableHlo.Run
import Idealize.ShloMosaic.Lib.Pipeline.Value
import Idealize.ShloMosaic.Lib.ValueIdx

set_option maxRecDepth 16384

noncomputable section

namespace Cert.KernelIdeal.Around

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The de-quantised weight matrix W : [4096 output features, 4096 input features] as a function of the five
    quantisation arguments, as the reference computes it. -/
abbrev weights (c : Dev nD) : Vec Ideal S4096x4096 .f32 :=
  Cert.ReferenceIdeal.Read.val_main_v32 (F := Ideal) (m ((c : Thread nD τ).loc main_arg1)) (m ((c : Thread nD τ).loc main_arg2)) (m ((c : Thread nD τ).loc main_arg3)) (m ((c : Thread nD τ).loc main_arg4)) (m ((c : Thread nD τ).loc main_arg5))

/-! ## Before the region -/

/-- The activations the region finds: x flattened to [4096, 4096], then narrowed. -/
theorem acts_eq (c : Dev nD) :
    Whole.acts m c = truncf (F := Ideal) .bf16 (shapeCast S4096x4096 (m ((c : Thread nD τ).loc main_arg0)) shapeCasts_S2x2048x4096_S4096x4096) bitsLt_bf16_f32 := by
  show StableHlo.after hostOps0 (fun b => m (c, b)) (Proc.devRef .tc main_call0_v35) = _
  after_results_simp
  rfl

/-- The weights the region finds: W, narrowed. -/
theorem wts_eq (c : Dev nD) :
    Whole.wts m c = truncf (F := Ideal) .bf16 (weights m c) bitsLt_bf16_f32 := by
  show StableHlo.after hostOps0 (fun b => m (c, b)) (Proc.devRef .tc main_call0_v33) = _
  after_results_simp
  rfl

/-! ## After the region -/

/-- What the kernel's result buffer ends holding: the product array viewed as [2, 2048, 4096]. -/
def result (c : Dev nD) : Vec Ideal S2x2048x4096 .f32 :=
  shapeCast S2x2048x4096 (Whole.rowsByRows (Whole.acts m c) (Whole.wts m c)) shapeCasts_S4096x4096_S2x2048x4096

/-- The one line after the region reshapes the region's result array, which is the whole product. -/
theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  after_results
  unfold result
  rw [← Whole.result_array m c]
  exact congrArg (fun y => shapeCast S2x2048x4096 y shapeCasts_S4096x4096_S2x2048x4096)
    (Pipeline.withArrays_arr spec0 launch0.win.arr_inj c _ _ 2)

/-! ## The run -/

/-- Every weakly fair execution of the kernel's @main ends with the result buffer at `result` and the arguments
    unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Around

end
-- ==== Proof.SameSum.lean ====
/-
  The two results are one function of the arguments. Entry (b, s, n) of the kernel's result is entry
  (2048·b + s, n) of the product array, that is  Σ_k X[2048·b + s, k] · Wb[n, k]  with X the flattened, narrowed x and
  Wb the narrowed W; narrowing changes nothing on the extended reals and row 2048·b + s of the flattened x is row (b, s)
  of x, so this is  Σ_k x[b, s, k] · W[n, k].  The reference contracts x's last axis with W's last axis in one product
  and reads, at the same entry, the same sum over the same 4096 positions: no term is moved, so no law of the extended
  reals beyond the equality of the summands is used.
-/
import proofs.«413379_j24721831756583_2_alg».proof.Proof.AroundRegion

noncomputable section

namespace Cert.KernelIdeal.Around

open Cert.KernelIdeal Cert.KernelIdeal.Gen Idealize.ShloMosaic Idealize.ShloMosaic.TcCoe Idealize.SL.Sem

variable (m : (ℓ : Loc nD τ sig) → Buf (Elt Ideal) ℓ)

/-- The kernel's result is the reference's last stage at the kernel's own arguments. -/
theorem result_eq (c : Dev nD) :
    result m c = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, s, n, rfl⟩ : ∃ (b : Fin 2) (s : Fin 2048) (n : Fin 4096), i = ValueIdx.ix3 b s n := ⟨i 0, i 1, i 2, ValueIdx.eq_ix3 i⟩
  have hb : b.val < 2 := b.isLt
  have hs : s.val < 2048 := s.isLt
  obtain ⟨r, hr⟩ : ∃ r : Fin 4096, r.val = b.val * 2048 + s.val := ⟨⟨b.val * 2048 + s.val, by omega⟩, rfl⟩
  rw [Cert.ReferenceIdeal.Read.val_main_v33_apply]
  unfold result
  rw [shapeCast_apply _ shapeCasts_S4096x4096_S2x2048x4096 (ValueIdx.ix3 b s n) (ValueIdx.ix2 r n)
    (by rw [Shape.rowMajor_val_two, Shape.rowMajor_val_three]
        show r.val * 4096 + n.val = (b.val * 2048 + s.val) * 4096 + n.val
        rw [hr])]
  show ∑ k : Fin 4096, Whole.acts m c (ValueIdx.ix2 r k) * Whole.wts m c (ValueIdx.ix2 n k) = _
  refine Finset.sum_congr rfl fun k _ => ?_
  rw [acts_eq, wts_eq, ValueIdx.truncf_apply, ValueIdx.truncf_apply]
  have hflat : (S2x2048x4096.rowMajor (ValueIdx.ix3 b s k)).val = (S4096x4096.rowMajor (ValueIdx.ix2 r k)).val := by
    rw [Shape.rowMajor_val_two, Shape.rowMajor_val_three]
    show (b.val * 2048 + s.val) * 4096 + k.val = r.val * 4096 + k.val
    rw [hr]
  rw [shapeCast_apply (m ((c : Thread nD τ).loc main_arg0)) shapeCasts_S2x2048x4096_S4096x4096 (ValueIdx.ix2 r k) (ValueIdx.ix3 b s k) hflat]
  have el : Cert.ReferenceIdeal.Read.lidx_main_v33 (ValueIdx.ix3 b s n) k = ValueIdx.ix3 b s k := funext fun a => by
    match a with
    | ⟨0, _⟩ => rfl
    | ⟨1, _⟩ => rfl
    | ⟨2, _⟩ => rfl
  have er : Cert.ReferenceIdeal.Read.ridx_main_v33 (ValueIdx.ix3 b s n) k = ValueIdx.ix2 n k := funext fun a => by
    match a with
    | ⟨0, _⟩ => rfl
    | ⟨1, _⟩ => rfl
  rw [el, er]

end Cert.KernelIdeal.Around

end
-- ==== Proof.lean ====
/-
  A 4-bit block-quantised linear layer against its dense reference, over the extended reals.

  Both programs first de-quantise the weights: each packed word gives two nibbles q ∈ {0..15}; a weight is
  ((q / 15) · (scale / 63) + (min / 63)) · d + dmin, with one (scale, min) pair per sub-block of 32 weights and one
  (d, dmin) pair per super-block of 256, laid out as W : [4096 output features, 4096 input features]. The two programs
  perform this step with the same operations on the same constants, so W is one term on both sides.

  The kernel then flattens x : [2, 2048, 4096] to 4096 rows, narrows x and W to bf16 (the identity on the extended
  reals), and computes the product tile by tile: a 4 x 8 grid, point (g0, g1) writing the 512 x 1024 tile
  (g1, g0) as  Σ_k X[r, k] · W[n, k]  over the WHOLE contracted axis, so every tile is written once and the tiles
  together are  P[r, n] = Σ_k X[r, k] · W[n, k]; the result is P viewed as [2, 2048, 4096].
  The reference contracts x's last axis with W's last axis in one product:  out[b, s, n] = Σ_k x[b, s, k] · W[n, k].
  Row 2048·b + s of the flattened x is row (b, s) of x, so the two results agree entry by entry, as the same finite sum
  of the same products. Nothing is re-associated or distributed, so finiteness of the inputs is not used.

  The three frames are the generated runs; the idealisation rewrote nothing, so it is preserved trivially.
-/
import proofs.«413379_j24721831756583_2_alg».proof.Defs
import proofs.«413379_j24721831756583_2_alg».proof.Proof.Gen.Kernel
import proofs.«413379_j24721831756583_2_alg».proof.Proof.Gen.Kernel.Skeleton
import proofs.«413379_j24721831756583_2_alg».proof.Proof.Gen.Kernel.Launch
import proofs.«413379_j24721831756583_2_alg».proof.Proof.Gen.Kernel.Points
import proofs.«413379_j24721831756583_2_alg».proof.Proof.Gen.Kernel.Frame
import proofs.«413379_j24721831756583_2_alg».proof.Proof.Gen.KernelIdeal
import proofs.«413379_j24721831756583_2_alg».proof.Proof.Gen.KernelIdeal.Skeleton
import proofs.«413379_j24721831756583_2_alg».proof.Proof.Gen.KernelIdeal.Launch
import proofs.«413379_j24721831756583_2_alg».proof.Proof.Gen.KernelIdeal.Points
import proofs.«413379_j24721831756583_2_alg».proof.Proof.Gen.KernelIdeal.Frame
import proofs.«413379_j24721831756583_2_alg».proof.Proof.Gen.ReferenceIdeal
import proofs.«413379_j24721831756583_2_alg».proof.Proof.Gen.ReferenceIdeal.Run
import proofs.«413379_j24721831756583_2_alg».proof.Proof.Gen.ReferenceIdeal.Read
import proofs.«413379_j24721831756583_2_alg».proof.Proof.Gen.Pre_finite_inputs
import proofs.«413379_j24721831756583_2_alg».proof.Proof.SameSum
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference has no region: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the six arguments, the kernel ends at the tiled product viewed as [2, 2048, 4096] and
    the reference at its one contraction of the same arguments: the same sums, entry by entry. -/
theorem algebraic : Cert.algebraic_KernelIdeal_ReferenceIdeal := by
  intro m ρ m' ρ' _ hagree
  refine ⟨fun c => Cert.KernelIdeal.Around.result m c, Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2]
  exact (Cert.KernelIdeal.Around.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
